-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x10 : Shape := ⟨2, ![262144, 10]⟩
abbrev S286x286 : Shape := ⟨2, ![286, 286]⟩
abbrev S_ : Shape := ⟨0, ![]⟩

class Facts : Prop where
  bcast_S_S262144x10 : S_.BroadcastsInDim S262144x10 (![] : Fin 0 → Fin S262144x10.rank)
  reducesTo_S262144x10_S_d0_1 : S262144x10.ReducesTo [0, 1] S_
  h_S_ : 0 < S_.numel
  bcast_S_S286x286 : S_.BroadcastsInDim S286x286 (![] : Fin 0 → Fin S286x286.rank)
  reducesTo_S286x286_S_d0_1 : S286x286.ReducesTo [0, 1] S_

variable [Facts]

def fn {F : FTy → Type} [FloatOps F] (main_arg0 : FVec F S262144x10 .f32) (main_arg1 : FVec F S286x286 .f32) : IVec S_ 1 :=
  let main_v0 : FVec F S262144x10 .f32 := Host.absf main_arg0
  let main_cst : FVec F S_ .f32 := constant S_ .f32 0x7F800000#32
  let main_v1 : FVec F S262144x10 .f32 := broadcastInDim S262144x10 ![] bcast_S_S262144x10 main_cst
  let main_v2 : IVec S262144x10 1 := cmpf .olt main_v0 main_v1
  let main_c : IVec S_ 1 := constantI S_ 1 1#1
  let main_v3 : IVec S_ 1 := (fun x v => Host.reduce IntOp.andi x v reducesTo_S262144x10_S_d0_1 h_S_) main_v2 main_c
  let main_v4 : FVec F S286x286 .f32 := Host.absf main_arg1
  let main_cst_0 : FVec F S_ .f32 := constant S_ .f32 0x7F800000#32
  let main_v5 : FVec F S286x286 .f32 := broadcastInDim S286x286 ![] bcast_S_S286x286 main_cst_0
  let main_v6 : IVec S286x286 1 := cmpf .olt main_v4 main_v5
  let main_c_1 : IVec S_ 1 := constantI S_ 1 1#1
  let main_v7 : IVec S_ 1 := (fun x v => Host.reduce IntOp.andi x v reducesTo_S286x286_S_d0_1 h_S_) main_v6 main_c_1
  let main_v8 : IVec S_ 1 := andi main_v3 main_v7
  main_v8
-- ==== Kernel.lean ====
abbrev S262144x10 : Shape := ⟨2, ![262144, 10]⟩
abbrev S286x286 : Shape := ⟨2, ![286, 286]⟩
abbrev S10x262144 : Shape := ⟨2, ![10, 262144]⟩
abbrev S286x262144 : Shape := ⟨2, ![286, 262144]⟩
abbrev S10x4096 : Shape := ⟨2, ![10, 4096]⟩
abbrev S286x4096 : Shape := ⟨2, ![286, 4096]⟩
abbrev S1x4096 : Shape := ⟨2, ![1, 4096]⟩
abbrev S262144x286 : Shape := ⟨2, ![262144, 286]⟩
abbrev S262144 : Shape := ⟨1, ![262144]⟩
abbrev S4096x286 : Shape := ⟨2, ![4096, 286]⟩
abbrev S4096 : Shape := ⟨1, ![4096]⟩
abbrev S262144x1x1 : Shape := ⟨3, ![262144, 1, 1]⟩

abbrev nBuf : Space → Nat
  | .hbm => 8
  | .vmem => 9
  | .smem => 0
  | _ => 0

abbrev bufTy : (tb : Table) → Fin (tcTables nBuf tb) → BufTy
  | .hbm, ⟨0, _⟩ => ⟨S262144x10, .f32⟩
  | .hbm, ⟨1, _⟩ => ⟨S286x286, .f32⟩
  | .hbm, ⟨2, _⟩ => ⟨S10x262144, .f32⟩
  | .hbm, ⟨3, _⟩ => ⟨S286x262144, .bf16⟩
  | .hbm, ⟨4, _⟩ => ⟨S262144x286, .bf16⟩
  | .hbm, ⟨5, _⟩ => ⟨S286x286, .bf16⟩
  | .hbm, ⟨6, _⟩ => ⟨S262144, .f32⟩
  | .hbm, ⟨7, _⟩ => ⟨S262144x1x1, .f32⟩
  | .local _ .vmem, ⟨0, _⟩ => ⟨S10x4096, .f32⟩
  | .local _ .vmem, ⟨1, _⟩ => ⟨S10x4096, .f32⟩
  | .local _ .vmem, ⟨2, _⟩ => ⟨S286x4096, .bf16⟩
  | .local _ .vmem, ⟨3, _⟩ => ⟨S286x4096, .bf16⟩
  | .local _ .vmem, ⟨4, _⟩ => ⟨S4096x286, .bf16⟩
  | .local _ .vmem, ⟨5, _⟩ => ⟨S4096x286, .bf16⟩
  | .local _ .vmem, ⟨6, _⟩ => ⟨S286x286, .bf16⟩
  | .local _ .vmem, ⟨7, _⟩ => ⟨S4096, .f32⟩
  | .local _ .vmem, ⟨8, _⟩ => ⟨S4096, .f32⟩
  | _, _ => ⟨S262144x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S10x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S286x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S4096x286 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S286x286 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S262144x10_S10x262144 : S262144x10.ShapeCasts S10x262144
  inb_S10x4096_S10x4096_0_0 : ∀ a, (![0, 0] : Fin 2 → Nat) a + S10x4096.size a ≤ S10x4096.size a
  h_S10x4096 : 0 < S10x4096.numel
  shapeCasts_S10x4096_S10x4096 : S10x4096.ShapeCasts S10x4096
  slices_S10x4096_o0_0_S1x4096 : S10x4096.Slices ![0, 0] S1x4096
  slices_S10x4096_o1_0_S1x4096 : S10x4096.Slices ![1, 0] S1x4096
  slices_S10x4096_o2_0_S1x4096 : S10x4096.Slices ![2, 0] S1x4096
  slices_S10x4096_o3_0_S1x4096 : S10x4096.Slices ![3, 0] S1x4096
  slices_S10x4096_o4_0_S1x4096 : S10x4096.Slices ![4, 0] S1x4096
  slices_S10x4096_o5_0_S1x4096 : S10x4096.Slices ![5, 0] S1x4096
  slices_S10x4096_o6_0_S1x4096 : S10x4096.Slices ![6, 0] S1x4096
  slices_S10x4096_o7_0_S1x4096 : S10x4096.Slices ![7, 0] S1x4096
  slices_S10x4096_o8_0_S1x4096 : S10x4096.Slices ![8, 0] S1x4096
  slices_S10x4096_o9_0_S1x4096 : S10x4096.Slices ![9, 0] S1x4096
  concatenates_S1x4096_S10x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S286x4096_d0 : Shape.Concatenates (S1x4096 :: S10x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: S1x4096 :: []) S286x4096 0
  bitsLt_bf16_f32 : FTy.bits .bf16 < FTy.bits .f32
  inb_S286x4096_S286x4096_0_0 : ∀ a, (![0, 0] : Fin 2 → Nat) a + S286x4096.size a ≤ S286x4096.size a
  h_S286x4096 : 0 < S286x4096.numel
  packedbf16_S286x4096_S286x4096_0_0 : (Rect.unit (s := S286x4096) ![0, 0] S286x4096.size inb_S286x4096_S286x4096_0_0).PackedRows (EltTy.packing .bf16)
  shapeCasts_S286x262144_S262144x286 : S286x262144.ShapeCasts S262144x286
  inb_S4096x286_S4096x286_0_0 : ∀ a, (![0, 0] : Fin 2 → Nat) a + S4096x286.size a ≤ S4096x286.size a
  h_S4096x286 : 0 < S4096x286.numel
  shapeCasts_S4096x286_S4096x286 : S4096x286.ShapeCasts S4096x286
  inb_S286x286_S286x286_0_0 : ∀ a, (![0, 0] : Fin 2 → Nat) a + S286x286.size a ≤ S286x286.size a
  h_S286x286 : 0 < S286x286.numel
  shapeCasts_S286x286_S286x286 : S286x286.ShapeCasts S286x286
  reduces_S4096x286_S4096 : S4096x286.Reduces [1] S4096
  inb_S4096_S4096_0 : ∀ a, (![0] : Fin 1 → Nat) a + S4096.size a ≤ S4096.size a
  h_S4096 : 0 < S4096.numel
  shapeCasts_S262144_S262144x1x1 : S262144.ShapeCasts S262144x1x1
  dot_S4096x286_S286x286_S4096x286_1_0_0_1_n_n_wf : DotDims.WF S4096x286 S286x286 S4096x286 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10x4096.size a ≤ S10x262144.size a
  hwx0_0 : ∀ i : grid0.Coords, EltTy.bits .f32 = 32 ∨ (Rect.block (s := S10x262144) S10x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S286x4096.size a ≤ S286x262144.size a
  hwx0_1 : ∀ i : grid0.Coords, EltTy.bits .bf16 = 32 ∨ (Rect.block (s := S286x262144) S286x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x286.size a ≤ S262144x286.size a
  hwx1_0 : ∀ i : grid1.Coords, EltTy.bits .bf16 = 32 ∨ (Rect.block (s := S262144x286) S4096x286.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S286x286.size a ≤ S286x286.size a
  hwx1_1 : ∀ i : grid1.Coords, EltTy.bits .bf16 = 32 ∨ (Rect.block (s := S286x286) S286x286.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096.size a ≤ S262144.size a
  hwx1_2 : ∀ i : grid1.Coords, EltTy.bits .f32 = 32 ∨ (Rect.block (s := S262144) S4096.size (cc1_transform_2 i) (hinb1_2 i)).WholeWords (EltTy.packing .f32)

variable [Facts₀]

def dot_S4096x286_S286x286_S4096x286_1_0_0_1_n_n : DotDims S4096x286 S286x286 S4096x286 where
  lhsContracting := [1]
  rhsContracting := [0]
  lhsNonContracting := [0]
  rhsNonContracting := [1]
  lhsBatch := []
  rhsBatch := []
  wf := dot_S4096x286_S286x286_S4096x286_1_0_0_1_n_n_wf

abbrev win0_0 : Pipeline.Window sig grid0 :=
  Pipeline.Window.ofSpec (Memref.whole main_v0) S10x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S286x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v2) S4096x286.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S286x286.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S262144x10 : Shape := ⟨2, ![262144, 10]⟩
abbrev S286x286 : Shape := ⟨2, ![286, 286]⟩
abbrev S55 : Shape := ⟨1, ![55]⟩
abbrev S220 : Shape := ⟨1, ![220]⟩
abbrev S10x262144 : Shape := ⟨2, ![10, 262144]⟩
abbrev S_ : Shape := ⟨0, ![]⟩
abbrev S1x262144 : Shape := ⟨2, ![1, 262144]⟩
abbrev S55x1 : Shape := ⟨2, ![55, 1]⟩
abbrev S55x262144 : Shape := ⟨2, ![55, 262144]⟩
abbrev S220x1 : Shape := ⟨2, ![220, 1]⟩
abbrev S220x262144 : Shape := ⟨2, ![220, 262144]⟩
abbrev S286x262144 : Shape := ⟨2, ![286, 262144]⟩
abbrev S262144x286 : Shape := ⟨2, ![262144, 286]⟩
abbrev S262144 : Shape := ⟨1, ![262144]⟩
abbrev S262144x1x1 : Shape := ⟨3, ![262144, 1, 1]⟩

abbrev nBuf : Space → Nat
  | .hbm => 55
  | .vmem => 0
  | .smem => 0
  | _ => 0

abbrev bufTy : (tb : Table) → Fin (tcTables nBuf tb) → BufTy
  | .hbm, ⟨0, _⟩ => ⟨S262144x10, .f32⟩
  | .hbm, ⟨1, _⟩ => ⟨S286x286, .f32⟩
  | .hbm, ⟨2, _⟩ => ⟨S55, .i32⟩
  | .hbm, ⟨3, _⟩ => ⟨S55, .i1⟩
  | .hbm, ⟨4, _⟩ => ⟨S55, .i32⟩
  | .hbm, ⟨5, _⟩ => ⟨S55, .i1⟩
  | .hbm, ⟨6, _⟩ => ⟨S220, .i32⟩
  | .hbm, ⟨7, _⟩ => ⟨S220, .i1⟩
  | .hbm, ⟨8, _⟩ => ⟨S220, .i32⟩
  | .hbm, ⟨9, _⟩ => ⟨S220, .i1⟩
  | .hbm, ⟨10, _⟩ => ⟨S220, .i32⟩
  | .hbm, ⟨11, _⟩ => ⟨S220, .i1⟩
  | .hbm, ⟨12, _⟩ => ⟨S10x262144, .f32⟩
  | .hbm, ⟨13, _⟩ => ⟨S_, .f32⟩
  | .hbm, ⟨14, _⟩ => ⟨S1x262144, .f32⟩
  | .hbm, ⟨15, _⟩ => ⟨S_, .i32⟩
  | .hbm, ⟨16, _⟩ => ⟨S55, .i32⟩
  | .hbm, ⟨17, _⟩ => ⟨S55, .i32⟩
  | .hbm, ⟨18, _⟩ => ⟨S55, .i32⟩
  | .hbm, ⟨19, _⟩ => ⟨S55x1, .i32⟩
  | .hbm, ⟨20, _⟩ => ⟨S55x262144, .f32⟩
  | .hbm, ⟨21, _⟩ => ⟨S_, .i32⟩
  | .hbm, ⟨22, _⟩ => ⟨S55, .i32⟩
  | .hbm, ⟨23, _⟩ => ⟨S55, .i32⟩
  | .hbm, ⟨24, _⟩ => ⟨S55, .i32⟩
  | .hbm, ⟨25, _⟩ => ⟨S55x1, .i32⟩
  | .hbm, ⟨26, _⟩ => ⟨S55x262144, .f32⟩
  | .hbm, ⟨27, _⟩ => ⟨S55x262144, .f32⟩
  | .hbm, ⟨28, _⟩ => ⟨S_, .i32⟩
  | .hbm, ⟨29, _⟩ => ⟨S220, .i32⟩
  | .hbm, ⟨30, _⟩ => ⟨S220, .i32⟩
  | .hbm, ⟨31, _⟩ => ⟨S220, .i32⟩
  | .hbm, ⟨32, _⟩ => ⟨S220x1, .i32⟩
  | .hbm, ⟨33, _⟩ => ⟨S220x262144, .f32⟩
  | .hbm, ⟨34, _⟩ => ⟨S_, .i32⟩
  | .hbm, ⟨35, _⟩ => ⟨S220, .i32⟩
  | .hbm, ⟨36, _⟩ => ⟨S220, .i32⟩
  | .hbm, ⟨37, _⟩ => ⟨S220, .i32⟩
  | .hbm, ⟨38, _⟩ => ⟨S220x1, .i32⟩
  | .hbm, ⟨39, _⟩ => ⟨S220x262144, .f32⟩
  | .hbm, ⟨40, _⟩ => ⟨S220x262144, .f32⟩
  | .hbm, ⟨41, _⟩ => ⟨S_, .i32⟩
  | .hbm, ⟨42, _⟩ => ⟨S220, .i32⟩
  | .hbm, ⟨43, _⟩ => ⟨S220, .i32⟩
  | .hbm, ⟨44, _⟩ => ⟨S220, .i32⟩
  | .hbm, ⟨45, _⟩ => ⟨S220x1, .i32⟩
  | .hbm, ⟨46, _⟩ => ⟨S220x262144, .f32⟩
  | .hbm, ⟨47, _⟩ => ⟨S220x262144, .f32⟩
  | .hbm, ⟨48, _⟩ => ⟨S286x262144, .f32⟩
  | .hbm, ⟨49, _⟩ => ⟨S262144x286, .f32⟩
  | .hbm, ⟨50, _⟩ => ⟨S262144x286, .f32⟩
  | .hbm, ⟨51, _⟩ => ⟨S262144x286, .f32⟩
  | .hbm, ⟨52, _⟩ => ⟨S_, .f32⟩
  | .hbm, ⟨53, _⟩ => ⟨S262144, .f32⟩
  | .hbm, ⟨54, _⟩ => ⟨S262144x1x1, .f32⟩
  | _, _ => ⟨S262144x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_c_5 : Ref sig .tc := ⟨.hbm, 8, rfl⟩
abbrev main_c_6 : Ref sig .tc := ⟨.hbm, 9, rfl⟩
abbrev main_c_7 : Ref sig .tc := ⟨.hbm, 10, rfl⟩
abbrev main_c_8 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_c_9 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_10 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_11 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_12 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_13 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_14 : Ref sig .tc := ⟨.hbm, 52, rfl⟩
abbrev main_v34 : Ref sig .tc := ⟨.hbm, 53, rfl⟩
abbrev main_v35 : Ref sig .tc := ⟨.hbm, 54, rfl⟩

abbrev nD : Nat := 1
abbrev τ : Topo := Topo.v7x

variable {F : FTy → Type} [FloatOps F]

class Facts₀ : Prop where
  shapeCasts_S262144x10_S10x262144 : S262144x10.ShapeCasts S10x262144
  bcast_S_S1x262144 : S_.BroadcastsInDim S1x262144 (![] : Fin 0 → Fin S1x262144.rank)
  bcast_S_S55 : S_.BroadcastsInDim S55 (![] : Fin 0 → Fin S55.rank)
  bcast_S55_S55x1_0 : S55.BroadcastsInDim S55x1 (![0] : Fin 1 → Fin S55x1.rank)
  bcast_S_S220 : S_.BroadcastsInDim S220 (![] : Fin 0 → Fin S220.rank)
  bcast_S220_S220x1_0 : S220.BroadcastsInDim S220x1 (![0] : Fin 1 → Fin S220x1.rank)
  concatenates_S1x262144_S10x262144_S55x262144_S220x262144_S286x262144_d0 : Shape.Concatenates [S1x262144, S10x262144, S55x262144, S220x262144] S286x262144 0
  shapeCasts_S286x262144_S262144x286 : S286x262144.ShapeCasts S262144x286
  reducesTo_S262144x286_S262144_d1 : S262144x286.ReducesTo [1] S262144
  h_S_ : 0 < S_.numel
  shapeCasts_S262144_S262144x1x1 : S262144.ShapeCasts S262144x1x1
  gather_S10x262144_S55x1_S55x262144_1_0_n_n_0_1_1262144_wf : GatherDims.WF S10x262144 S55x1 S55x262144 [1] [0] [] [0] [] 1 ![1, 262144]
  gather_S10x262144_S220x1_S220x262144_1_0_n_n_0_1_1262144_wf : GatherDims.WF S10x262144 S220x1 S220x262144 [1] [0] [] [0] [] 1 ![1, 262144]
  dot_S262144x286_S286x286_S262144x286_1_0_0_1_n_n_wf : DotDims.WF S262144x286 S286x286 S262144x286 [1] [0] [0] [1] [] []

variable [Facts₀]

def gather_S10x262144_S55x1_S55x262144_1_0_n_n_0_1_1262144 : GatherDims S10x262144 S55x1 S55x262144 where
  offsetDims := [1]
  collapsedSliceDims := [0]
  operandBatchingDims := []
  startIndicesBatchingDims := []
  startIndexMap := [0]
  indexVectorDim := 1
  sliceSizes := ![1, 262144]
  wf := gather_S10x262144_S55x1_S55x262144_1_0_n_n_0_1_1262144_wf
def gather_S10x262144_S220x1_S220x262144_1_0_n_n_0_1_1262144 : GatherDims S10x262144 S220x1 S220x262144 where
  offsetDims := [1]
  collapsedSliceDims := [0]
  operandBatchingDims := []
  startIndicesBatchingDims := []
  startIndexMap := [0]
  indexVectorDim := 1
  sliceSizes := ![1, 262144]
  wf := gather_S10x262144_S220x1_S220x262144_1_0_n_n_0_1_1262144_wf
def dot_S262144x286_S286x286_S262144x286_1_0_0_1_n_n : DotDims S262144x286 S286x286 S262144x286 where
  lhsContracting := [1]
  rhsContracting := [0]
  lhsNonContracting := [0]
  rhsNonContracting := [1]
  lhsBatch := []
  rhsBatch := []
  wf := dot_S262144x286_S286x286_S262144x286_1_0_0_1_n_n_wf

class Facts : Prop extends Facts₀ where

variable [Facts]
-- ==== Proof.Spec.lean ====
/-
  The function both programs compute, over the extended reals.

  A point of ten coordinates is expanded into the 286 monomials of degree at most three in them: the constant one,
  the ten coordinates, the 55 products of two and the 220 products of three, the factors of each product named by
  the reference's own index tables and multiplied from the left. The points are the columns of the 10 × 262144
  array the input is read as, so the expansion is a 286 × 262144 array; read again as 262144 rows of 286 entries,
  each row `v` is sent to the quadratic form `∑ j, (∑ k, v k * M k j) * v j`.
-/
import proofs.«106948_j9311489098219_1_alg».proof.ReferenceIdeal
import Idealize.ShloMosaic.PureOps.Ideal
import Idealize.ShloMosaic.Lib.ValueIdx

noncomputable section

namespace Cert.Veronese

open Idealize.ShloMosaic Idealize.ShloMosaic.ValueIdx
open Cert.ReferenceIdeal (S262144x10 S10x262144 S286x262144 S262144x286 S286x286 S262144 S262144x1x1 lit0 lit1 lit2 lit3 lit4)

/-- The coordinate a table word names: the word read signed, clamped into `0 … 9`. -/
def var (w : BitVec 32) : Fin 10 := ⟨min w.toInt.toNat 9, by omega⟩

/-- The constant monomial: the float one. -/
def one : EReal := FloatOps.ofBits (F := Ideal) .f32 0x3F800000#32

/-- Monomial `r` of the point `xc`: row 0 is one, rows 1 … 10 the coordinates, rows 11 … 65 the products of two
    coordinates, rows 66 … 285 the products of three, multiplied from the left. -/
def mono (xc : Fin 10 → EReal) (r : Fin 286) : EReal :=
  if h1 : r.val < 1 then one
  else if h2 : r.val < 11 then xc ⟨r.val - 1, by omega⟩
  else if h3 : r.val < 66 then xc (var (lit0 ⟨r.val - 11, by omega⟩)) * xc (var (lit1 ⟨r.val - 11, by omega⟩))
  else xc (var (lit2 ⟨r.val - 66, by omega⟩)) * xc (var (lit3 ⟨r.val - 66, by omega⟩)) * xc (var (lit4 ⟨r.val - 66, by omega⟩))

/-- Row 0. -/
theorem mono_zero (xc : Fin 10 → EReal) (r : Fin 286) (h : r.val < 1) : mono xc r = one := by
  unfold mono; rw [dif_pos h]

/-- Rows 1 … 10. -/
theorem mono_coord (xc : Fin 10 → EReal) (r : Fin 286) (h1 : 1 ≤ r.val) (h2 : r.val < 11) :
    mono xc r = xc ⟨r.val - 1, by omega⟩ := by
  unfold mono; rw [dif_neg (by omega), dif_pos h2]

/-- Rows 11 … 65. -/
theorem mono_two (xc : Fin 10 → EReal) (r : Fin 286) (h1 : 11 ≤ r.val) (h2 : r.val < 66) :
    mono xc r = xc (var (lit0 ⟨r.val - 11, by omega⟩)) * xc (var (lit1 ⟨r.val - 11, by omega⟩)) := by
  unfold mono; rw [dif_neg (by omega), dif_neg (by omega), dif_pos h2]

/-- Rows 66 … 285. -/
theorem mono_three (xc : Fin 10 → EReal) (r : Fin 286) (h : 66 ≤ r.val) :
    mono xc r = xc (var (lit2 ⟨r.val - 66, by omega⟩)) * xc (var (lit3 ⟨r.val - 66, by omega⟩)) * xc (var (lit4 ⟨r.val - 66, by omega⟩)) := by
  unfold mono; rw [dif_neg (by omega), dif_neg (by omega), dif_neg (by omega)]

/-- The expansion of every column of `xr`. -/
def veronese (xr : S10x262144.Idx → EReal) : S286x262144.Idx → EReal :=
  fun j => mono (fun a => xr (ix2 a (j 1))) (j 0)

/-- The quadratic form of every row of `vq` in the matrix `M`. -/
def quad (vq : S262144x286.Idx → EReal) (M : S286x286.Idx → EReal) : S262144.Idx → EReal :=
  fun n => ∑ j : Fin 286, (∑ k : Fin 286, vq (ix2 (n 0) k) * M (ix2 k j)) * vq (ix2 (n 0) j)

theorem casts_in : S262144x10.ShapeCasts S10x262144 := by decide
theorem casts_mid : S286x262144.ShapeCasts S262144x286 := by decide
theorem casts_out : S262144.ShapeCasts S262144x1x1 := by decide

/-- THE WHOLE FUNCTION: the input read as 10 × 262144, expanded, the expansion read as 262144 × 286, the quadratic
    form of every row in `M`, the 262144 results read as 262144 × 1 × 1. -/
def whole (x : S262144x10.Idx → EReal) (M : S286x286.Idx → EReal) : S262144x1x1.Idx → EReal :=
  shapeCast S262144x1x1 (quad (shapeCast S262144x286 (veronese (shapeCast S10x262144 x casts_in)) casts_mid) M) casts_out

end Cert.Veronese

end
-- ==== Proof.LibUnitRows.lean ====
/-
  A concatenation of rows, read at a row.

  Pieces of two axes laid end to end along the first axis: a piece of one row, a piece of `m` rows, then `N` pieces
  of one row each. Row `r` of the result, for `r ≥ 1 + m`, is the single row of piece number `r - (1 + m) + 2`:
  the pieces before it hold `1 + m + (r - (1 + m)) = r` rows between them.
-/
import Idealize.ShloMosaic.Lib.Pipeline.Value
import Idealize.ShloMosaic.Lib.ValueIdx

noncomputable section

namespace Cert.LibUnitRows

open Idealize.ShloMosaic Idealize.ShloMosaic.ValueIdx

variable {α : Type}

/-- Row `r ≥ 1 + m` of the concatenation along axis 0 of a one-row piece, an `m`-row piece and `N` one-row
    pieces is the row of the piece at list position `r - (1 + m) + 2`. -/
theorem concatenate_unit_row {R C : Nat} (m N : Nat) (xs : List ((s : Shape) × (s.Idx → α)))
    (h : Shape.Concatenates (xs.map (·.1)) ⟨2, ![R, C]⟩ 0)
    (hm : xs.map (·.1) = (⟨2, ![1, C]⟩ : Shape) :: ⟨2, ![m, C]⟩ :: List.replicate N ⟨2, ![1, C]⟩)
    (r : Fin R) (hr : 1 + m ≤ r.val) (x₁ : (⟨2, ![1, C]⟩ : Shape).Idx → α)
    (hx : xs[r.val - (1 + m) + 2]? = some ⟨⟨2, ![1, C]⟩, x₁⟩) (q : Fin C) :
    concatenate ⟨2, ![R, C]⟩ 0 xs h (ix2 r q) = x₁ (ix2 0 q) := by
  obtain ⟨hk, hxk⟩ := List.getElem?_eq_some_iff.mp hx
  have hlen : xs.length = N + 2 := by
    have := congrArg List.length hm
    simpa using this
  refine concatenate_apply_piece (0 : Fin 2) xs h (ix2 r q) (r.val - (1 + m) + 2) hk ⟨2, ![1, C]⟩ x₁ hxk rfl r.val ?_
    (ix2 0 q) (fun b hb => ?_) ?_
  · rw [List.map_take, hm]
    have hk' : r.val - (1 + m) ≤ N := by omega
    simp only [List.take_succ_cons, List.take_replicate, List.map_cons, List.map_replicate, List.sum_cons,
      List.sum_replicate, Nat.min_eq_left hk']
    show 1 + (m + (r.val - (1 + m)) • 1) = r.val
    rw [smul_eq_mul, Nat.mul_one]; omega
  · match b with
    | ⟨0, _⟩ => exact absurd rfl hb
    | ⟨1, _⟩ => rfl
  · show r.val + 0 = r.val
    rfl

/-- Row 0 of such a concatenation is the row of the first piece. -/
theorem concatenate_first_row {R C : Nat} (m N : Nat) (xs : List ((s : Shape) × (s.Idx → α)))
    (h : Shape.Concatenates (xs.map (·.1)) ⟨2, ![R, C]⟩ 0)
    (hm : xs.map (·.1) = (⟨2, ![1, C]⟩ : Shape) :: ⟨2, ![m, C]⟩ :: List.replicate N ⟨2, ![1, C]⟩)
    (r : Fin R) (hr : r.val = 0) (x₁ : (⟨2, ![1, C]⟩ : Shape).Idx → α)
    (hx : xs[0]? = some ⟨⟨2, ![1, C]⟩, x₁⟩) (q : Fin C) :
    concatenate ⟨2, ![R, C]⟩ 0 xs h (ix2 r q) = x₁ (ix2 0 q) := by
  obtain ⟨hk, hxk⟩ := List.getElem?_eq_some_iff.mp hx
  refine concatenate_apply_piece (0 : Fin 2) xs h (ix2 r q) 0 hk ⟨2, ![1, C]⟩ x₁ hxk rfl 0 ?_
    (ix2 0 q) (fun b hb => ?_) ?_
  · simp
  · match b with
    | ⟨0, _⟩ => exact absurd rfl hb
    | ⟨1, _⟩ => rfl
  · show 0 + 0 = r.val
    omega

/-- Rows `1 … m` of such a concatenation are the rows of the second piece. -/
theorem concatenate_second_rows {R C : Nat} (m N : Nat) (xs : List ((s : Shape) × (s.Idx → α)))
    (h : Shape.Concatenates (xs.map (·.1)) ⟨2, ![R, C]⟩ 0)
    (hm : xs.map (·.1) = (⟨2, ![1, C]⟩ : Shape) :: ⟨2, ![m, C]⟩ :: List.replicate N ⟨2, ![1, C]⟩)
    (r : Fin R) (a : Fin m) (hr : r.val = a.val + 1) (x₁ : (⟨2, ![m, C]⟩ : Shape).Idx → α)
    (hx : xs[1]? = some ⟨⟨2, ![m, C]⟩, x₁⟩) (q : Fin C) :
    concatenate ⟨2, ![R, C]⟩ 0 xs h (ix2 r q) = x₁ (ix2 a q) := by
  obtain ⟨hk, hxk⟩ := List.getElem?_eq_some_iff.mp hx
  refine concatenate_apply_piece (0 : Fin 2) xs h (ix2 r q) 1 hk ⟨2, ![m, C]⟩ x₁ hxk rfl 1 ?_
    (ix2 a q) (fun b hb => ?_) ?_
  · rw [List.map_take, hm]
    simp
  · match b with
    | ⟨0, _⟩ => exact absurd rfl hb
    | ⟨1, _⟩ => rfl
  · show 1 + a.val = r.val
    omega

end Cert.LibUnitRows

end
-- ==== Proof.KernelRows.lean ====
/-
  The block the first kernel stores, row by row.

  The body stacks 277 pieces along the first axis: a row of ones, the ten rows of its input block, and 275 single
  rows, each a product of two or of three one-row slices of the input block multiplied from the left. Row `r` of
  the stack at column `q` is therefore the monomial `r` of the column `q` of the input block: the constant for
  row 0, the coordinate for rows 1 … 10, and for a later row the product whose factors the body slices — which are
  the factors the reference's index tables name at that row, checked row by row.
-/
import proofs.«106948_j9311489098219_1_alg».proof.Proof.KernelIdealFrame
import proofs.«106948_j9311489098219_1_alg».proof.Proof.Spec
import proofs.«106948_j9311489098219_1_alg».proof.Proof.LibUnitRows
import Idealize.ShloMosaic.Lib.Pipeline.Value
import Idealize.ShloMosaic.Lib.ValueIdx

set_option maxRecDepth 16384

noncomputable section

namespace Cert.KernelIdeal.Rows

open Idealize.ShloMosaic Idealize.ShloMosaic.ValueIdx Cert.KernelIdeal Cert.KernelIdeal.Gen Cert.KernelIdeal.GenP Cert.Veronese

/-- The whole-block rectangle's offsets are zero. -/
theorem hz2 : (![0, 0] : Fin 2 → Nat) = fun _ => 0 := funext fun a => by fin_cases a <;> rfl

/-- The one-row slice of the block at row `a`, at column `q`: the block at `(a, q)`. -/
theorem slice_row (a : Nat) (ha : a < 10) (v : S10x4096.Idx → EReal) (h : S10x4096.Slices ![a, 0] S1x4096) (q : Fin 4096) :
    extractStridedSlice S1x4096 ![a, 0] v h (ix2 0 q) = v (ix2 ⟨a, ha⟩ q) :=
  extractStridedSlice_apply _ v h _ _ fun b => by
    match b with
    | ⟨0, _⟩ => rfl
    | ⟨1, _⟩ => show q.val = 0 + q.val; omega

/-- Row 0 of the stored block: the constant one. -/
theorem row_zero (x0 : Vec Ideal S10x4096 .f32) (q : Fin 4096) :
    out0_1 (F := Ideal) x0 (ix2 ⟨0, by decide⟩ q) = mono (fun a => x0 (ix2 a q)) ⟨0, by decide⟩ := by
  unfold out0_1
  rw [View.canon_unit_zero hz2]
  simp only [View.ld_unit_zero (S := S10x4096) hz2]
  unfold k0_pay3 k0_pay2
  dsimp only
  rw [ValueIdx.truncf_apply]
  rw [mono_zero _ _ (by decide)]
  refine Eq.trans (Cert.LibUnitRows.concatenate_first_row 10 275 _ _ rfl _ rfl _ rfl q) ?_
  rfl

/-- Rows 1 … 10 of the stored block: the input block's rows. -/
theorem row_coord (x0 : Vec Ideal S10x4096 .f32) (a : Fin 10) (q : Fin 4096) :
    out0_1 (F := Ideal) x0 (ix2 ⟨a.val + 1, by omega⟩ q) = mono (fun a => x0 (ix2 a q)) ⟨a.val + 1, by omega⟩ := by
  unfold out0_1
  rw [View.canon_unit_zero hz2]
  simp only [View.ld_unit_zero (S := S10x4096) hz2]
  unfold k0_pay3 k0_pay2
  dsimp only
  rw [ValueIdx.truncf_apply]
  rw [mono_coord _ _ (Nat.le_add_left 1 a.val) (by show a.val + 1 < 11; omega)]
  refine Eq.trans (Cert.LibUnitRows.concatenate_second_rows 10 275 _ _ rfl _ a rfl _ rfl q) ?_
  unfold k0_pay4
  rw [shapeCast_self]
  rfl

/-- Rows 11 … 65 of the stored block: the products of two rows of the input block, as the tables name them. -/
theorem row_two (x0 : Vec Ideal S10x4096 .f32) (k : Fin 55) (q : Fin 4096) :
    out0_1 (F := Ideal) x0 (ix2 ⟨k.val + 11, by omega⟩ q) = mono (fun a => x0 (ix2 a q)) ⟨k.val + 11, by omega⟩ := by
  unfold out0_1
  rw [View.canon_unit_zero hz2]
  simp only [View.ld_unit_zero (S := S10x4096) hz2]
  unfold k0_pay3 k0_pay2
  dsimp only
  rw [ValueIdx.truncf_apply]
  fin_cases k
  all_goals
    refine Eq.trans (Cert.LibUnitRows.concatenate_unit_row 10 275 _ _ rfl _ (Nat.le_of_ble_eq_true rfl) _ rfl q) ?_
  all_goals
    simp (disch := decide) only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, ValueIdx.mulf_apply, slice_row, shapeCast_self]
  all_goals
    rw [mono_two _ _ (Nat.le_of_ble_eq_true rfl) (Nat.lt_of_lt_of_le (Nat.lt_succ_self _) (Nat.le_of_ble_eq_true rfl))]
  all_goals
    exact congrArg₂ (· * ·) (congrArg (fun a => x0 (ix2 a q)) (by decide +kernel)) (congrArg (fun a => x0 (ix2 a q)) (by decide +kernel))

/-- Rows 66 … 109: products of three rows. -/
theorem row_three_a (x0 : Vec Ideal S10x4096 .f32) (k : Fin 44) (q : Fin 4096) :
    out0_1 (F := Ideal) x0 (ix2 ⟨k.val + 66, by omega⟩ q) = mono (fun a => x0 (ix2 a q)) ⟨k.val + 66, by omega⟩ := by
  unfold out0_1
  rw [View.canon_unit_zero hz2]
  simp only [View.ld_unit_zero (S := S10x4096) hz2]
  unfold k0_pay3 k0_pay2
  dsimp only
  rw [ValueIdx.truncf_apply]
  fin_cases k
  all_goals
    refine Eq.trans (Cert.LibUnitRows.concatenate_unit_row 10 275 _ _ rfl _ (Nat.le_of_ble_eq_true rfl) _ rfl q) ?_
  all_goals
    simp (disch := decide) only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, ValueIdx.mulf_apply, slice_row, shapeCast_self]
  all_goals
    rw [mono_three _ _ (Nat.le_of_ble_eq_true rfl)]
  all_goals
    exact congrArg₂ (· * ·) (congrArg₂ (· * ·) (congrArg (fun a => x0 (ix2 a q)) (by decide +kernel)) (congrArg (fun a => x0 (ix2 a q)) (by decide +kernel))) (congrArg (fun a => x0 (ix2 a q)) (by decide +kernel))

/-- Rows 110 … 153. -/
theorem row_three_b (x0 : Vec Ideal S10x4096 .f32) (k : Fin 44) (q : Fin 4096) :
    out0_1 (F := Ideal) x0 (ix2 ⟨k.val + 110, by omega⟩ q) = mono (fun a => x0 (ix2 a q)) ⟨k.val + 110, by omega⟩ := by
  unfold out0_1
  rw [View.canon_unit_zero hz2]
  simp only [View.ld_unit_zero (S := S10x4096) hz2]
  unfold k0_pay3 k0_pay2
  dsimp only
  rw [ValueIdx.truncf_apply]
  fin_cases k
  all_goals
    refine Eq.trans (Cert.LibUnitRows.concatenate_unit_row 10 275 _ _ rfl _ (Nat.le_of_ble_eq_true rfl) _ rfl q) ?_
  all_goals
    simp (disch := decide) only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, ValueIdx.mulf_apply, slice_row, shapeCast_self]
  all_goals
    rw [mono_three _ _ (Nat.le_of_ble_eq_true rfl)]
  all_goals
    exact congrArg₂ (· * ·) (congrArg₂ (· * ·) (congrArg (fun a => x0 (ix2 a q)) (by decide +kernel)) (congrArg (fun a => x0 (ix2 a q)) (by decide +kernel))) (congrArg (fun a => x0 (ix2 a q)) (by decide +kernel))

/-- Rows 154 … 197. -/
theorem row_three_c (x0 : Vec Ideal S10x4096 .f32) (k : Fin 44) (q : Fin 4096) :
    out0_1 (F := Ideal) x0 (ix2 ⟨k.val + 154, by omega⟩ q) = mono (fun a => x0 (ix2 a q)) ⟨k.val + 154, by omega⟩ := by
  unfold out0_1
  rw [View.canon_unit_zero hz2]
  simp only [View.ld_unit_zero (S := S10x4096) hz2]
  unfold k0_pay3 k0_pay2
  dsimp only
  rw [ValueIdx.truncf_apply]
  fin_cases k
  all_goals
    refine Eq.trans (Cert.LibUnitRows.concatenate_unit_row 10 275 _ _ rfl _ (Nat.le_of_ble_eq_true rfl) _ rfl q) ?_
  all_goals
    simp (disch := decide) only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, ValueIdx.mulf_apply, slice_row, shapeCast_self]
  all_goals
    rw [mono_three _ _ (Nat.le_of_ble_eq_true rfl)]
  all_goals
    exact congrArg₂ (· * ·) (congrArg₂ (· * ·) (congrArg (fun a => x0 (ix2 a q)) (by decide +kernel)) (congrArg (fun a => x0 (ix2 a q)) (by decide +kernel))) (congrArg (fun a => x0 (ix2 a q)) (by decide +kernel))

/-- Rows 198 … 241. -/
theorem row_three_d (x0 : Vec Ideal S10x4096 .f32) (k : Fin 44) (q : Fin 4096) :
    out0_1 (F := Ideal) x0 (ix2 ⟨k.val + 198, by omega⟩ q) = mono (fun a => x0 (ix2 a q)) ⟨k.val + 198, by omega⟩ := by
  unfold out0_1
  rw [View.canon_unit_zero hz2]
  simp only [View.ld_unit_zero (S := S10x4096) hz2]
  unfold k0_pay3 k0_pay2
  dsimp only
  rw [ValueIdx.truncf_apply]
  fin_cases k
  all_goals
    refine Eq.trans (Cert.LibUnitRows.concatenate_unit_row 10 275 _ _ rfl _ (Nat.le_of_ble_eq_true rfl) _ rfl q) ?_
  all_goals
    simp (disch := decide) only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, ValueIdx.mulf_apply, slice_row, shapeCast_self]
  all_goals
    rw [mono_three _ _ (Nat.le_of_ble_eq_true rfl)]
  all_goals
    exact congrArg₂ (· * ·) (congrArg₂ (· * ·) (congrArg (fun a => x0 (ix2 a q)) (by decide +kernel)) (congrArg (fun a => x0 (ix2 a q)) (by decide +kernel))) (congrArg (fun a => x0 (ix2 a q)) (by decide +kernel))

/-- Rows 242 … 285. -/
theorem row_three_e (x0 : Vec Ideal S10x4096 .f32) (k : Fin 44) (q : Fin 4096) :
    out0_1 (F := Ideal) x0 (ix2 ⟨k.val + 242, by omega⟩ q) = mono (fun a => x0 (ix2 a q)) ⟨k.val + 242, by omega⟩ := by
  unfold out0_1
  rw [View.canon_unit_zero hz2]
  simp only [View.ld_unit_zero (S := S10x4096) hz2]
  unfold k0_pay3 k0_pay2
  dsimp only
  rw [ValueIdx.truncf_apply]
  fin_cases k
  all_goals
    refine Eq.trans (Cert.LibUnitRows.concatenate_unit_row 10 275 _ _ rfl _ (Nat.le_of_ble_eq_true rfl) _ rfl q) ?_
  all_goals
    simp (disch := decide) only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, ValueIdx.mulf_apply, slice_row, shapeCast_self]
  all_goals
    rw [mono_three _ _ (Nat.le_of_ble_eq_true rfl)]
  all_goals
    exact congrArg₂ (· * ·) (congrArg₂ (· * ·) (congrArg (fun a => x0 (ix2 a q)) (by decide +kernel)) (congrArg (fun a => x0 (ix2 a q)) (by decide +kernel))) (congrArg (fun a => x0 (ix2 a q)) (by decide +kernel))

/-- THE STORED BLOCK, row by row: row `r` at column `q` is the monomial `r` of column `q` of the input block. -/
theorem out0_1_apply (x0 : Vec Ideal S10x4096 .f32) (r : Fin 286) (q : Fin 4096) :
    out0_1 (F := Ideal) x0 (ix2 r q) = mono (fun a => x0 (ix2 a q)) r := by
  have hr := r.isLt
  by_cases h1 : r.val < 1
  · have e : r = ⟨0, by decide⟩ := Fin.ext (by show r.val = 0; omega)
    rw [e]
    exact row_zero x0 q
  by_cases h2 : r.val < 11
  · have e : r = ⟨(⟨r.val - 1, by omega⟩ : Fin 10).val + 1, by show r.val - 1 + 1 < 286; omega⟩ :=
      Fin.ext (by show r.val = r.val - 1 + 1; omega)
    rw [e]
    exact row_coord x0 ⟨r.val - 1, by omega⟩ q
  by_cases h3 : r.val < 66
  · have e : r = ⟨(⟨r.val - 11, by omega⟩ : Fin 55).val + 11, by show r.val - 11 + 11 < 286; omega⟩ :=
      Fin.ext (by show r.val = r.val - 11 + 11; omega)
    rw [e]
    exact row_two x0 ⟨r.val - 11, by omega⟩ q
  by_cases h4 : r.val < 110
  · have e : r = ⟨(⟨r.val - 66, by omega⟩ : Fin 44).val + 66, by show r.val - 66 + 66 < 286; omega⟩ :=
      Fin.ext (by show r.val = r.val - 66 + 66; omega)
    rw [e]
    exact row_three_a x0 ⟨r.val - 66, by omega⟩ q
  by_cases h5 : r.val < 154
  · have e : r = ⟨(⟨r.val - 110, by omega⟩ : Fin 44).val + 110, by show r.val - 110 + 110 < 286; omega⟩ :=
      Fin.ext (by show r.val = r.val - 110 + 110; omega)
    rw [e]
    exact row_three_b x0 ⟨r.val - 110, by omega⟩ q
  by_cases h6 : r.val < 198
  · have e : r = ⟨(⟨r.val - 154, by omega⟩ : Fin 44).val + 154, by show r.val - 154 + 154 < 286; omega⟩ :=
      Fin.ext (by show r.val = r.val - 154 + 154; omega)
    rw [e]
    exact row_three_c x0 ⟨r.val - 154, by omega⟩ q
  by_cases h7 : r.val < 242
  · have e : r = ⟨(⟨r.val - 198, by omega⟩ : Fin 44).val + 198, by show r.val - 198 + 198 < 286; omega⟩ :=
      Fin.ext (by show r.val = r.val - 198 + 198; omega)
    rw [e]
    exact row_three_d x0 ⟨r.val - 198, by omega⟩ q
  · have e : r = ⟨(⟨r.val - 242, by omega⟩ : Fin 44).val + 242, by show r.val - 242 + 242 < 286; omega⟩ :=
      Fin.ext (by show r.val = r.val - 242 + 242; omega)
    rw [e]
    exact row_three_e x0 ⟨r.val - 242, by omega⟩ q

end Cert.KernelIdeal.Rows

end
-- ==== Proof.KernelVeronese.lean ====
/-
  What the first kernel region leaves in its output array: the monomial expansion of the input array's columns.

  Point `t` of the grid reads the block of columns `4096 t … 4096 t + 4095` of the 10 × 262144 input, and writes
  the block of the same columns of the 286 × 262144 output; the body's row `r` at a column is the monomial `r` of
  that column of its input block. The 64 blocks tile the output, so the array after the region is the expansion.
-/
import proofs.«106948_j9311489098219_1_alg».proof.Proof.KernelIdealFrame
import proofs.«106948_j9311489098219_1_alg».proof.Proof.KernelRows
import proofs.«106948_j9311489098219_1_alg».proof.Proof.Spec
import Idealize.ShloMosaic.Lib.Pipeline.Value
import Idealize.ShloMosaic.Lib.ValueIdx

set_option maxRecDepth 16384

noncomputable section

namespace Cert.KernelIdeal.Region0

open Cert.KernelIdeal Cert.KernelIdeal.Gen Cert.KernelIdeal.GenP Cert.Veronese
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The input array as the region finds it, at its literal type. -/
abbrev xarr (c : Dev nD) : S10x262144.Idx → EReal := V c main_v0

/-- The printed index maps over the grid: both windows sit at row block 0 and column block `t`. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, _)

/-- The input block at point `t`, at `(a, q)`: the array at column `4096 t + q`. -/
theorem iblk_apply (c : Dev nD) (t : Fin cfg0.N) (a : Fin 10) (q : Fin 4096) :
    iblk0 V c 0 t (ix2 a q) = xarr V c (ix2 a ⟨t.val * 4096 + q.val, by have ht : t.val < 64 := t.isLt; have := q.isLt; show _ < 262144; omega⟩) := by
  obtain ⟨e0, e1, -, -⟩ := idx_facts t
  show V c main_v0 (((cfg0.win 0).blk t).view.emb (ix2 a q)) = V c main_v0 _
  refine congrArg (V c main_v0) (funext fun b => Fin.ext ?_)
  match b with
  | ⟨0, _⟩ => show win0_0.index t (0 : Fin 2) * 10 + 1 * a.val = a.val; omega
  | ⟨1, _⟩ => show win0_0.index t (1 : Fin 2) * 4096 + 1 * q.val = t.val * 4096 + q.val; omega

/-- The output block's index `(r, q)` at point `t` is the array index `(r, 4096 t + q)`. -/
theorem oemb_apply (t : Fin cfg0.N) (r : Fin 286) (q : Fin 4096) :
    ((cfg0.win 1).blk t).view.emb (ix2 r q)
      = (ix2 r ⟨t.val * 4096 + q.val, by have ht : t.val < 64 := t.isLt; have := q.isLt; show _ < 262144; omega⟩ : S286x262144.Idx) := by
  obtain ⟨-, -, e2, e3⟩ := idx_facts t
  refine funext fun b => Fin.ext ?_
  match b with
  | ⟨0, _⟩ => show win0_1.index t (0 : Fin 2) * 286 + 1 * r.val = r.val; omega
  | ⟨1, _⟩ => show win0_1.index t (1 : Fin 2) * 4096 + 1 * q.val = t.val * 4096 + q.val; omega

/-- WHAT POINT `t` WRITES BACK is block `t` of the expansion of the input array. -/
theorem flushed_eq (c : Dev nD) (t : Fin cfg0.N) :
    (dat0 V c).flushed 1 t = ((cfg0.win 1).blk t).view.read (Elt Ideal) (veronese (xarr V c)) := by
  show (cfg0.win 1).cut (grid0.coords t) ((dat0 V c).after 1 t) = _
  rw [after0_1]
  funext j
  obtain ⟨r, q, rfl⟩ : ∃ (r : Fin 286) (q : Fin 4096), j = ix2 r q := ⟨j 0, j 1, eq_ix2 j⟩
  show out0_1 (iblk0 V c 0 t) (ix2 r q) = veronese (xarr V c) (((cfg0.win 1).blk t).view.emb (ix2 r q))
  rw [Cert.KernelIdeal.Rows.out0_1_apply, oemb_apply]
  unfold veronese
  show mono (fun a => iblk0 V c 0 t (ix2 a q)) r = mono (fun a => xarr V c (ix2 a _)) r
  exact congrArg (fun f => mono f r) (funext fun a => iblk_apply V c t a q)

/-- An index of the array is in point `t`'s block iff each coordinate is in the block's range on its axis. -/
theorem mem_blk (t : Fin cfg0.N) (i : S286x262144.Idx) :
    i ∈ ((cfg0.win 1).blk t).view.set ↔ ∀ a : Fin 2, win0_1.index t a * S286x4096.size a ≤ (i a).val ∧ (i a).val < win0_1.index t a * S286x4096.size a + S286x4096.size a := by
  show i ∈ ((View.whole main_v1).slice (win0_1.rect t)).set ↔ _
  rw [View.set_slice_whole, Rect.mem_set_unit]
  exact Iff.rfl

/-- Every index of the output array is in the block of the point its column falls in. -/
theorem cover (i : S286x262144.Idx) : ∃ t : Fin cfg0.N, (cfg0.win 1).flush t = true ∧ i ∈ ((cfg0.win 1).blk t).view.set := by
  have hi0 : (i 0).val < 286 := (i 0).isLt
  have hi1 : (i 1).val < 262144 := (i 1).isLt
  refine ⟨⟨(i 1).val / 4096, by show _ < 64; omega⟩, flush0_1 _, ?_⟩
  obtain ⟨-, -, e2, e3⟩ := idx_facts ⟨(i 1).val / 4096, by show _ < 64; omega⟩
  rw [mem_blk]
  intro a
  match a with
  | ⟨0, _⟩ => show win0_1.index _ (0 : Fin 2) * 286 ≤ (i 0).val ∧ (i 0).val < win0_1.index _ (0 : Fin 2) * 286 + 286; omega
  | ⟨1, _⟩ =>
    show win0_1.index _ (1 : Fin 2) * 4096 ≤ (i 1).val ∧ (i 1).val < win0_1.index _ (1 : Fin 2) * 4096 + 4096
    rw [e3]; show (i 1).val / 4096 * 4096 ≤ (i 1).val ∧ (i 1).val < (i 1).val / 4096 * 4096 + 4096; omega

/-- THE ARRAY after the region: the expansion of the input array as the region found it. -/
theorem final (c : Dev nD) : (dat0 V c).arrAt 1 cfg0.N = veronese (xarr V c) :=
  (dat0 V c).arrAt_eq_of_cover 1 (veronese (xarr V c)) (fun t _ => flushed_eq V c t) cover

end Cert.KernelIdeal.Region0

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.KernelQuad.lean ====
/-
  What the second kernel region leaves in its output array: the quadratic form of every row of its first input.

  Point `t` of the grid reads the block of rows `4096 t … 4096 t + 4095` of the 262144 × 286 array and the whole
  286 × 286 matrix, and writes entries `4096 t … 4096 t + 4095` of the output; the body's entry `p` is the sum over
  `j` of the product's entry `(p, j)` times the block's entry `(p, j)`. The 64 blocks tile the output.
-/
import proofs.«106948_j9311489098219_1_alg».proof.Proof.KernelIdealFrame
import proofs.«106948_j9311489098219_1_alg».proof.Proof.Spec
import proofs.«106948_j9311489098219_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen Cert.KernelIdeal.GenP Cert.Veronese
open Idealize.ShloMosaic Idealize.ShloMosaic.TcCoe Idealize.ShloMosaic.ValueIdx Idealize.SL.Sem
open Idealize.ShloMosaic.Pipeline (Dat Cfg Window)

/-- The whole-block rectangles' offsets are zero. -/
theorem hz2 : (![0, 0] : Fin 2 → Nat) = fun _ => 0 := funext fun a => by fin_cases a <;> rfl
theorem hz1 : (![0] : Fin 1 → Nat) = fun _ => 0 := funext fun a => by fin_cases a; rfl

/-- The index the row sum reads at result row `p` and summation coordinate `j`: `(p, j)`. -/
theorem lift_eq (h : S4096x286.Reduces [1] S4096) (p : Fin 4096) (j : Fin 286) :
    h.lift (ix1 p) j = ix2 p j := by
  funext a; apply Fin.ext
  match a with
  | ⟨0, _⟩ => rfl
  | ⟨1, _⟩ => rfl

/-- THE BODY'S STORED VALUE at row `p`: the quadratic form of row `p` of the first block in the second. -/
theorem pay_apply (x0 : FVec Ideal S4096x286 .bf16) (x1 : FVec Ideal S286x286 .bf16) (p : Fin 4096) :
    k1_pay1 (F := Ideal) x0 x1 (ix1 p) = ∑ j : Fin 286, (∑ k : Fin 286, x0 (ix2 p k) * x1 (ix2 k j)) * x0 (ix2 p j) := by
  unfold k1_pay1
  dsimp only
  refine (Ideal.multiReduction_add_single _ _ _ _ _ (ix1 p)).trans ?_
  refine Finset.sum_congr rfl fun (j : Fin 286) _ => ?_
  rw [lift_eq _ p j, mulf_apply, extf_apply, shapeCast_self, shapeCast_self]
  exact congrArg (· * x0 (ix2 p j)) (Cert.LibPlainDot.matmul_zero_apply _ rfl rfl rfl rfl rfl rfl none x0 x1 p j)

variable (V : (c : Dev nD) → (b : Ref sig .tc) → Buf (Elt Ideal) ((c : Thread nD τ).loc b))

/-- The two input arrays as the region finds them, and the two input blocks at a point, at their literal types. -/
abbrev varr (c : Dev nD) : S262144x286.Idx → EReal := V c main_v2
abbrev marr (c : Dev nD) : S286x286.Idx → EReal := V c main_v3
abbrev vblk (c : Dev nD) (t : Fin cfg1.N) : FVec Ideal S4096x286 .bf16 := iblk1 V c 0 t
abbrev mblk (c : Dev nD) (t : Fin cfg1.N) : FVec Ideal S286x286 .bf16 := iblk1 V c 1 t

/-- The printed index maps over the grid: the first input and the output sit at block `t`, the matrix at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = t.val :=
  (by decide +kernel : ∀ t : Fin grid1.N, _)

/-- The first input's block at point `t`, at `(p, k)`: the array at row `4096 t + p`. -/
theorem vblk_apply (c : Dev nD) (t : Fin cfg1.N) (p : Fin 4096) (k : Fin 286) :
    vblk V c t (ix2 p k) = varr V c (ix2 ⟨t.val * 4096 + p.val, by have ht : t.val < 64 := t.isLt; have := p.isLt; show _ < 262144; omega⟩ k) := by
  obtain ⟨e0, e1, -, -, -⟩ := idx_facts t
  show V c main_v2 (((cfg1.win 0).blk t).view.emb (ix2 p k)) = V c main_v2 _
  refine congrArg (V c main_v2) (funext fun b => Fin.ext ?_)
  match b with
  | ⟨0, _⟩ => show win1_0.index t (0 : Fin 2) * 4096 + 1 * p.val = t.val * 4096 + p.val; omega
  | ⟨1, _⟩ => show win1_0.index t (1 : Fin 2) * 286 + 1 * k.val = k.val; omega

/-- The matrix's block at any point is the matrix. -/
theorem mblk_apply (c : Dev nD) (t : Fin cfg1.N) (k j : Fin 286) : mblk V c t (ix2 k j) = marr V c (ix2 k j) := by
  obtain ⟨-, -, e2, e3, -⟩ := idx_facts t
  show V c main_v3 (((cfg1.win 1).blk t).view.emb (ix2 k j)) = V c main_v3 _
  refine congrArg (V c main_v3) (funext fun b => Fin.ext ?_)
  match b with
  | ⟨0, _⟩ => show win1_1.index t (0 : Fin 2) * 286 + 1 * k.val = k.val; omega
  | ⟨1, _⟩ => show win1_1.index t (1 : Fin 2) * 286 + 1 * j.val = j.val; omega

/-- The output block's index `p` at point `t` is the array index `4096 t + p`. -/
theorem oemb_apply (t : Fin cfg1.N) (p : Fin 4096) :
    ((cfg1.win 2).blk t).view.emb (ix1 p)
      = (ix1 ⟨t.val * 4096 + p.val, by have ht : t.val < 64 := t.isLt; have := p.isLt; show _ < 262144; omega⟩ : S262144.Idx) := by
  obtain ⟨-, -, -, -, e4⟩ := idx_facts t
  refine funext fun b => Fin.ext ?_
  match b with
  | ⟨0, _⟩ => show win1_2.index t (0 : Fin 1) * 4096 + 1 * p.val = t.val * 4096 + p.val; omega

/-- WHAT POINT `t` WRITES BACK is block `t` of the quadratic forms of the first array's rows in the matrix. -/
theorem flushed_eq (c : Dev nD) (t : Fin cfg1.N) :
    (dat1 V c).flushed 2 t = ((cfg1.win 2).blk t).view.read (Elt Ideal) (quad (varr V c) (marr V c)) := by
  show (cfg1.win 2).cut (grid1.coords t) ((dat1 V c).after 2 t) = _
  rw [after1_2]
  funext j
  obtain ⟨p, rfl⟩ : ∃ p : Fin 4096, j = ix1 p := ⟨j 0, eq_ix1 j⟩
  show out1_2 (iblk1 V c 0 t) (iblk1 V c 1 t) (ix1 p) = quad (varr V c) (marr V c) (((cfg1.win 2).blk t).view.emb (ix1 p))
  unfold out1_2
  rw [View.canon_unit_zero hz1]
  simp only [View.ld_unit_zero (S := S4096x286) hz2, View.ld_unit_zero (S := S286x286) hz2]
  rw [oemb_apply]
  refine (pay_apply (vblk V c t) (mblk V c t) p).trans ?_
  unfold quad
  refine Finset.sum_congr rfl fun j _ => ?_
  rw [vblk_apply]
  refine congrArg (· * _) (Finset.sum_congr rfl fun k _ => ?_)
  rw [vblk_apply, mblk_apply]

/-- An index of the array is in point `t`'s block iff its coordinate is in the block's range. -/
theorem mem_blk (t : Fin cfg1.N) (i : S262144.Idx) :
    i ∈ ((cfg1.win 2).blk t).view.set ↔ ∀ a : Fin 1, win1_2.index t a * S4096.size a ≤ (i a).val ∧ (i a).val < win1_2.index t a * S4096.size a + S4096.size a := by
  show i ∈ ((View.whole main_v4).slice (win1_2.rect t)).set ↔ _
  rw [View.set_slice_whole, Rect.mem_set_unit]
  exact Iff.rfl

/-- Every index of the output array is in the block of the point it falls in. -/
theorem cover (i : S262144.Idx) : ∃ t : Fin cfg1.N, (cfg1.win 2).flush t = true ∧ i ∈ ((cfg1.win 2).blk t).view.set := by
  have hi0 : (i 0).val < 262144 := (i 0).isLt
  refine ⟨⟨(i 0).val / 4096, by show _ < 64; omega⟩, flush1_2 _, ?_⟩
  obtain ⟨-, -, -, -, e4⟩ := idx_facts ⟨(i 0).val / 4096, by show _ < 64; omega⟩
  rw [mem_blk]
  intro a
  match a with
  | ⟨0, _⟩ =>
    show win1_2.index _ (0 : Fin 1) * 4096 ≤ (i 0).val ∧ (i 0).val < win1_2.index _ (0 : Fin 1) * 4096 + 4096
    rw [e4]; show (i 0).val / 4096 * 4096 ≤ (i 0).val ∧ (i 0).val < (i 0).val / 4096 * 4096 + 4096; omega

/-- THE ARRAY after the region: the quadratic forms of the rows of the first array in the matrix, as the region found them. -/
theorem final (c : Dev nD) : (dat1 V c).arrAt 2 cfg1.N = quad (varr V c) (marr V c) :=
  (dat1 V c).arrAt_eq_of_cover 2 (quad (varr V c) (marr V c)) (fun t _ => flushed_eq V c t) cover

end Cert.KernelIdeal.Region1

end
-- ==== Proof.KernelValue.lean ====
/-
  What the idealized kernel program leaves in its result buffer, as one function of its two arguments.

  @main reads the input as 10 × 262144, runs the first region (the monomial expansion), reads its output as
  262144 × 286, narrows the matrix (a change of format: the identity on extended reals), runs the second region (the
  quadratic forms) and reads the 262144 results as 262144 × 1 × 1. Each boundary's contents are read off the fold the
  frame states, the two regions' output arrays by their cover lemmas.
-/
import proofs.«106948_j9311489098219_1_alg».proof.Proof.KernelIdealRun
import proofs.«106948_j9311489098219_1_alg».proof.Proof.KernelVeronese
import proofs.«106948_j9311489098219_1_alg».proof.Proof.KernelQuad
import proofs.«106948_j9311489098219_1_alg».proof.Proof.Spec
import Idealize.ShloMosaic.Lib.StableHlo.Run

set_option maxRecDepth 16384

noncomputable section

namespace Cert.KernelIdeal.Whole

open Cert.KernelIdeal Cert.KernelIdeal.Gen Cert.KernelIdeal.GenP Cert.Veronese
open Idealize.ShloMosaic Idealize.ShloMosaic.TcCoe Idealize.ShloMosaic.StableHlo Idealize.SL.Sem

variable (m : (ℓ : Loc nD τ sig) → Buf (Elt Ideal) ℓ) (ρ : Dev nD → PrngReg)

/-- The two arguments at their literal types. -/
abbrev xarg (c : Dev nD) : S262144x10.Idx → EReal := m ((c : Thread nD τ).loc main_arg0)
abbrev marg (c : Dev nD) : S286x286.Idx → EReal := m ((c : Thread nD τ).loc main_arg1)

/-- The first region finds the input read as 10 × 262144. -/
theorem entry0 (c : Dev nD) :
    Region0.xarr (V1 m ρ) c = shapeCast S10x262144 (xarg m c) shapeCasts_S262144x10_S10x262144 := by
  show StableHlo.after hostOps0 (W0 m ρ c) (Proc.devRef .tc main_v0) = _
  after_results
  rfl

/-- After the first region its output array holds the expansion. -/
theorem mid (c : Dev nD) :
    W2 m ρ c (Proc.devRef .tc main_v1) = veronese (shapeCast S10x262144 (xarg m c) shapeCasts_S262144x10_S10x262144) :=
  (W2_arr m ρ c 1).trans ((Region0.final (V1 m ρ) c).trans (congrArg veronese (entry0 m ρ c)))

/-- The second region finds the expansion read as 262144 × 286 … -/
theorem entry1_v (c : Dev nD) :
    Region1.varr (V3 m ρ) c
      = shapeCast S262144x286 (veronese (shapeCast S10x262144 (xarg m c) shapeCasts_S262144x10_S10x262144)) shapeCasts_S286x262144_S262144x286 := by
  show StableHlo.after hostOps1 (W2 m ρ c) (Proc.devRef .tc main_v2) = _
  after_results
  rw [mid]
  rfl

/-- … and the matrix, narrowed: itself. -/
theorem entry1_m (c : Dev nD) : Region1.marr (V3 m ρ) c = marg m c := by
  show StableHlo.after hostOps1 (W2 m ρ c) (Proc.devRef .tc main_v3) = _
  after_results
  have h1 : W1 m ρ c (Proc.devRef .tc main_arg1) = m ((c : Thread nD τ).loc main_arg1) := by
    show StableHlo.after hostOps0 (W0 m ρ c) (Proc.devRef .tc main_arg1) = _
    after_results
  rw [W2_of_ne m ρ c main_arg1 (by decide), h1]
  rfl

/-- THE RESULT BUFFER after the run: the whole function of the two arguments. -/
theorem value (c : Dev nD) : W5 m ρ c (Proc.devRef .tc main_v5) = whole (xarg m c) (marg m c) := by
  have h4 : W4 m ρ c (Proc.devRef .tc main_v4)
      = quad (shapeCast S262144x286 (veronese (shapeCast S10x262144 (xarg m c) shapeCasts_S262144x10_S10x262144)) shapeCasts_S286x262144_S262144x286) (marg m c) :=
    (W4_arr m ρ c 2).trans ((Region1.final (V3 m ρ) c).trans (by rw [entry1_v, entry1_m]))
  show StableHlo.after hostOps2 (W4 m ρ c) (Proc.devRef .tc main_v5) = _
  after_results
  rw [h4]
  rfl

/-- The run with the result read: every weakly fair execution of @main terminates, nothing faulting, with the
    result buffer at the whole function of the arguments and the arguments as launched. -/
theorem run : θ_run defs (onTc (τ := τ) (main (F := Ideal))) ⟨m, fun _ => 0, ρ⟩ (fun r => ∀ c : Dev nD,
      r.2.mem ((c.tc : Thread nD τ).loc main_v5) = whole (xarg m c) (marg m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (value m ρ c), (h c).2⟩) (Cert.KernelIdeal.GenRun.run m ρ)

end Cert.KernelIdeal.Whole

end
-- ==== Proof.RefRun.lean ====
/-
  The reference's @main as the list of its 53 host operations, and what its run leaves.

  Every weakly fair execution terminates; the result buffer then holds the operations' composed term of the two
  argument arrays, which end unchanged. The composed term is named piece by piece below: the 10 × 262144 reading
  `xr` of the input; a table of coordinate numbers as a one-column index array; the rows `xr` has at a table's
  entries; the 286 × 262144 array of monomials (the row of ones, `xr`, the products of two gathered arrays, the
  products of three); and the quadratic form of its 262144 × 286 reading.
-/
import proofs.«106948_j9311489098219_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- @main's 53 operations, in order. -/
abbrev ops : List (HloOp τ sig (Elt F)) :=
  [ nullary main_c (fun i => lit0 (S55.rowMajor i)),
    nullary main_c_0 (constantI S55 1 0#1),
    nullary main_c_1 (fun i => lit1 (S55.rowMajor i)),
    nullary main_c_2 (constantI S55 1 0#1),
    nullary main_c_3 (fun i => lit2 (S220.rowMajor i)),
    nullary main_c_4 (constantI S220 1 0#1),
    nullary main_c_5 (fun i => lit3 (S220.rowMajor i)),
    nullary main_c_6 (constantI S220 1 0#1),
    nullary main_c_7 (fun i => lit4 (S220.rowMajor i)),
    nullary main_c_8 (constantI S220 1 0#1),
    reshape main_arg0 main_v0 rfl shapeCasts_S262144x10_S10x262144,
    nullary main_cst (constant S_ .f32 0x3F800000#32),
    unary main_cst main_v1 (broadcastInDim S1x262144 ![] bcast_S_S1x262144 : (⟨S_, .f32⟩ : BufTy).Contents (Elt F) → (⟨S1x262144, .f32⟩ : BufTy).Contents (Elt F)),
    nullary main_c_9 (constantI S_ 32 10#32),
    unary main_c_9 main_v2 (broadcastInDim S55 ![] bcast_S_S55 : (⟨S_, .i32⟩ : BufTy).Contents (Elt F) → (⟨S55, .i32⟩ : BufTy).Contents (Elt F)),
    binary main_c main_v2 main_v3 (addi : (⟨S55, .i32⟩ : BufTy).Contents (Elt F) → (⟨S55, .i32⟩ : BufTy).Contents (Elt F) → (⟨S55, .i32⟩ : BufTy).Contents (Elt F)),
    ternary main_c_0 main_v3 main_c main_v4 (select : (⟨S55, .i1⟩ : BufTy).Contents (Elt F) → (⟨S55, .i32⟩ : BufTy).Contents (Elt F) → (⟨S55, .i32⟩ : BufTy).Contents (Elt F) → (⟨S55, .i32⟩ : BufTy).Contents (Elt F)),
    unary main_v4 main_v5 (broadcastInDim S55x1 ![0] bcast_S55_S55x1_0 : (⟨S55, .i32⟩ : BufTy).Contents (Elt F) → (⟨S55x1, .i32⟩ : BufTy).Contents (Elt F)),
    binary main_v0 main_v5 main_v6 ((fun x i => Host.gather gather_S10x262144_S55x1_S55x262144_1_0_n_n_0_1_1262144 x i) : (⟨S10x262144, .f32⟩ : BufTy).Contents (Elt F) → (⟨S55x1, .i32⟩ : BufTy).Contents (Elt F) → (⟨S55x262144, .f32⟩ : BufTy).Contents (Elt F)),
    nullary main_c_10 (constantI S_ 32 10#32),
    unary main_c_10 main_v7 (broadcastInDim S55 ![] bcast_S_S55 : (⟨S_, .i32⟩ : BufTy).Contents (Elt F) → (⟨S55, .i32⟩ : BufTy).Contents (Elt F)),
    binary main_c_1 main_v7 main_v8 (addi : (⟨S55, .i32⟩ : BufTy).Contents (Elt F) → (⟨S55, .i32⟩ : BufTy).Contents (Elt F) → (⟨S55, .i32⟩ : BufTy).Contents (Elt F)),
    ternary main_c_2 main_v8 main_c_1 main_v9 (select : (⟨S55, .i1⟩ : BufTy).Contents (Elt F) → (⟨S55, .i32⟩ : BufTy).Contents (Elt F) → (⟨S55, .i32⟩ : BufTy).Contents (Elt F) → (⟨S55, .i32⟩ : BufTy).Contents (Elt F)),
    unary main_v9 main_v10 (broadcastInDim S55x1 ![0] bcast_S55_S55x1_0 : (⟨S55, .i32⟩ : BufTy).Contents (Elt F) → (⟨S55x1, .i32⟩ : BufTy).Contents (Elt F)),
    binary main_v0 main_v10 main_v11 ((fun x i => Host.gather gather_S10x262144_S55x1_S55x262144_1_0_n_n_0_1_1262144 x i) : (⟨S10x262144, .f32⟩ : BufTy).Contents (Elt F) → (⟨S55x1, .i32⟩ : BufTy).Contents (Elt F) → (⟨S55x262144, .f32⟩ : BufTy).Contents (Elt F)),
    binary main_v6 main_v11 main_v12 (mulf : (⟨S55x262144, .f32⟩ : BufTy).Contents (Elt F) → (⟨S55x262144, .f32⟩ : BufTy).Contents (Elt F) → (⟨S55x262144, .f32⟩ : BufTy).Contents (Elt F)),
    nullary main_c_11 (constantI S_ 32 10#32),
    unary main_c_11 main_v13 (broadcastInDim S220 ![] bcast_S_S220 : (⟨S_, .i32⟩ : BufTy).Contents (Elt F) → (⟨S220, .i32⟩ : BufTy).Contents (Elt F)),
    binary main_c_3 main_v13 main_v14 (addi : (⟨S220, .i32⟩ : BufTy).Contents (Elt F) → (⟨S220, .i32⟩ : BufTy).Contents (Elt F) → (⟨S220, .i32⟩ : BufTy).Contents (Elt F)),
    ternary main_c_4 main_v14 main_c_3 main_v15 (select : (⟨S220, .i1⟩ : BufTy).Contents (Elt F) → (⟨S220, .i32⟩ : BufTy).Contents (Elt F) → (⟨S220, .i32⟩ : BufTy).Contents (Elt F) → (⟨S220, .i32⟩ : BufTy).Contents (Elt F)),
    unary main_v15 main_v16 (broadcastInDim S220x1 ![0] bcast_S220_S220x1_0 : (⟨S220, .i32⟩ : BufTy).Contents (Elt F) → (⟨S220x1, .i32⟩ : BufTy).Contents (Elt F)),
    binary main_v0 main_v16 main_v17 ((fun x i => Host.gather gather_S10x262144_S220x1_S220x262144_1_0_n_n_0_1_1262144 x i) : (⟨S10x262144, .f32⟩ : BufTy).Contents (Elt F) → (⟨S220x1, .i32⟩ : BufTy).Contents (Elt F) → (⟨S220x262144, .f32⟩ : BufTy).Contents (Elt F)),
    nullary main_c_12 (constantI S_ 32 10#32),
    unary main_c_12 main_v18 (broadcastInDim S220 ![] bcast_S_S220 : (⟨S_, .i32⟩ : BufTy).Contents (Elt F) → (⟨S220, .i32⟩ : BufTy).Contents (Elt F)),
    binary main_c_5 main_v18 main_v19 (addi : (⟨S220, .i32⟩ : BufTy).Contents (Elt F) → (⟨S220, .i32⟩ : BufTy).Contents (Elt F) → (⟨S220, .i32⟩ : BufTy).Contents (Elt F)),
    ternary main_c_6 main_v19 main_c_5 main_v20 (select : (⟨S220, .i1⟩ : BufTy).Contents (Elt F) → (⟨S220, .i32⟩ : BufTy).Contents (Elt F) → (⟨S220, .i32⟩ : BufTy).Contents (Elt F) → (⟨S220, .i32⟩ : BufTy).Contents (Elt F)),
    unary main_v20 main_v21 (broadcastInDim S220x1 ![0] bcast_S220_S220x1_0 : (⟨S220, .i32⟩ : BufTy).Contents (Elt F) → (⟨S220x1, .i32⟩ : BufTy).Contents (Elt F)),
    binary main_v0 main_v21 main_v22 ((fun x i => Host.gather gather_S10x262144_S220x1_S220x262144_1_0_n_n_0_1_1262144 x i) : (⟨S10x262144, .f32⟩ : BufTy).Contents (Elt F) → (⟨S220x1, .i32⟩ : BufTy).Contents (Elt F) → (⟨S220x262144, .f32⟩ : BufTy).Contents (Elt F)),
    binary main_v17 main_v22 main_v23 (mulf : (⟨S220x262144, .f32⟩ : BufTy).Contents (Elt F) → (⟨S220x262144, .f32⟩ : BufTy).Contents (Elt F) → (⟨S220x262144, .f32⟩ : BufTy).Contents (Elt F)),
    nullary main_c_13 (constantI S_ 32 10#32),
    unary main_c_13 main_v24 (broadcastInDim S220 ![] bcast_S_S220 : (⟨S_, .i32⟩ : BufTy).Contents (Elt F) → (⟨S220, .i32⟩ : BufTy).Contents (Elt F)),
    binary main_c_7 main_v24 main_v25 (addi : (⟨S220, .i32⟩ : BufTy).Contents (Elt F) → (⟨S220, .i32⟩ : BufTy).Contents (Elt F) → (⟨S220, .i32⟩ : BufTy).Contents (Elt F)),
    ternary main_c_8 main_v25 main_c_7 main_v26 (select : (⟨S220, .i1⟩ : BufTy).Contents (Elt F) → (⟨S220, .i32⟩ : BufTy).Contents (Elt F) → (⟨S220, .i32⟩ : BufTy).Contents (Elt F) → (⟨S220, .i32⟩ : BufTy).Contents (Elt F)),
    unary main_v26 main_v27 (broadcastInDim S220x1 ![0] bcast_S220_S220x1_0 : (⟨S220, .i32⟩ : BufTy).Contents (Elt F) → (⟨S220x1, .i32⟩ : BufTy).Contents (Elt F)),
    binary main_v0 main_v27 main_v28 ((fun x i => Host.gather gather_S10x262144_S220x1_S220x262144_1_0_n_n_0_1_1262144 x i) : (⟨S10x262144, .f32⟩ : BufTy).Contents (Elt F) → (⟨S220x1, .i32⟩ : BufTy).Contents (Elt F) → (⟨S220x262144, .f32⟩ : BufTy).Contents (Elt F)),
    binary main_v23 main_v28 main_v29 (mulf : (⟨S220x262144, .f32⟩ : BufTy).Contents (Elt F) → (⟨S220x262144, .f32⟩ : BufTy).Contents (Elt F) → (⟨S220x262144, .f32⟩ : BufTy).Contents (Elt F)),
    nary ![main_v1, main_v0, main_v12, main_v29] main_v30 (fun u => concatenate S286x262144 0 [⟨S1x262144, u 0⟩, ⟨S10x262144, u 1⟩, ⟨S55x262144, u 2⟩, ⟨S220x262144, u 3⟩] concatenates_S1x262144_S10x262144_S55x262144_S220x262144_S286x262144_d0),
    reshape main_v30 main_v31 rfl shapeCasts_S286x262144_S262144x286,
    binary main_v31 main_arg1 main_v32 ((fun l r => Host.dotGeneral dot_S262144x286_S286x286_S262144x286_1_0_0_1_n_n none l r) : (⟨S262144x286, .f32⟩ : BufTy).Contents (Elt F) → (⟨S286x286, .f32⟩ : BufTy).Contents (Elt F) → (⟨S262144x286, .f32⟩ : BufTy).Contents (Elt F)),
    binary main_v32 main_v31 main_v33 (mulf : (⟨S262144x286, .f32⟩ : BufTy).Contents (Elt F) → (⟨S262144x286, .f32⟩ : BufTy).Contents (Elt F) → (⟨S262144x286, .f32⟩ : BufTy).Contents (Elt F)),
    nullary main_cst_14 (constant S_ .f32 0x00000000#32),
    binary main_v33 main_cst_14 main_v34 ((fun x v => Host.reduceAdd x v reducesTo_S262144x286_S262144_d1 h_S_) : (⟨S262144x286, .f32⟩ : BufTy).Contents (Elt F) → (⟨S_, .f32⟩ : BufTy).Contents (Elt F) → (⟨S262144, .f32⟩ : BufTy).Contents (Elt F)),
    reshape main_v34 main_v35 rfl shapeCasts_S262144_S262144x1x1 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., nullary_bufs_sub .., nullary_bufs_sub .., nullary_bufs_sub .., reshape_bufs_sub .., nullary_bufs_sub .., unary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., binary_bufs_sub .., binary_bufs_sub .., nary_bufs_sub .., reshape_bufs_sub .., binary_bufs_sub .., binary_bufs_sub .., nullary_bufs_sub .., binary_bufs_sub .., reshape_bufs_sub ..⟩

/-- A table of 55 coordinate numbers as the one-column index array the gather reads: the wrap of negative entries
    (`entry + 10` where the all-false mask says so, so nowhere) and the added unit axis. -/
def col55 (t : (⟨S55, .i32⟩ : BufTy).Contents (Elt F)) : (⟨S55x1, .i32⟩ : BufTy).Contents (Elt F) :=
  broadcastInDim S55x1 ![0] bcast_S55_S55x1_0
    (select (constantI S55 1 0#1) (addi t (broadcastInDim S55 ![] bcast_S_S55 (constantI S_ 32 10#32))) t)

/-- The same for a table of 220. -/
def col220 (t : (⟨S220, .i32⟩ : BufTy).Contents (Elt F)) : (⟨S220x1, .i32⟩ : BufTy).Contents (Elt F) :=
  broadcastInDim S220x1 ![0] bcast_S220_S220x1_0
    (select (constantI S220 1 0#1) (addi t (broadcastInDim S220 ![] bcast_S_S220 (constantI S_ 32 10#32))) t)

/-- The rows of `xr` a table of 55 names. -/
def rows55 (xr : (⟨S10x262144, .f32⟩ : BufTy).Contents (Elt F)) (t : Fin 55 → BitVec 32) : (⟨S55x262144, .f32⟩ : BufTy).Contents (Elt F) :=
  Host.gather gather_S10x262144_S55x1_S55x262144_1_0_n_n_0_1_1262144 xr (col55 (F := F) fun i => t (S55.rowMajor i))

/-- The rows of `xr` a table of 220 names. -/
def rows220 (xr : (⟨S10x262144, .f32⟩ : BufTy).Contents (Elt F)) (t : Fin 220 → BitVec 32) : (⟨S220x262144, .f32⟩ : BufTy).Contents (Elt F) :=
  Host.gather gather_S10x262144_S220x1_S220x262144_1_0_n_n_0_1_1262144 xr (col220 (F := F) fun i => t (S220.rowMajor i))

/-- The array of monomials: ones, the coordinates, the products of two, the products of three. -/
def monomials (xr : (⟨S10x262144, .f32⟩ : BufTy).Contents (Elt F)) : (⟨S286x262144, .f32⟩ : BufTy).Contents (Elt F) :=
  concatenate S286x262144 0
    [⟨S1x262144, broadcastInDim S1x262144 ![] bcast_S_S1x262144 (constant S_ .f32 0x3F800000#32)⟩, ⟨S10x262144, xr⟩,
     ⟨S55x262144, mulf (rows55 xr lit0) (rows55 xr lit1)⟩,
     ⟨S220x262144, mulf (mulf (rows220 xr lit2) (rows220 xr lit3)) (rows220 xr lit4)⟩]
    concatenates_S1x262144_S10x262144_S55x262144_S220x262144_S286x262144_d0

/-- The quadratic form of every row of `vq`: the row times the matrix, times the row entry by entry, summed. -/
def quadForm (vq : (⟨S262144x286, .f32⟩ : BufTy).Contents (Elt F)) (M : (⟨S286x286, .f32⟩ : BufTy).Contents (Elt F)) :
    (⟨S262144, .f32⟩ : BufTy).Contents (Elt F) :=
  Host.reduceAdd (mulf (Host.dotGeneral dot_S262144x286_S286x286_S262144x286_1_0_0_1_n_n none vq M) vq) (constant S_ .f32 0x00000000#32)
    reducesTo_S262144x286_S262144_d1 h_S_

/-- What the result buffer holds after the run, of the two argument arrays. -/
def result (x : (⟨S262144x10, .f32⟩ : BufTy).Contents (Elt F)) (M : (⟨S286x286, .f32⟩ : BufTy).Contents (Elt F)) :
    (⟨S262144x1x1, .f32⟩ : BufTy).Contents (Elt F) :=
  shapeCast S262144x1x1
    (quadForm (shapeCast S262144x286 (monomials (shapeCast S10x262144 x shapeCasts_S262144x10_S10x262144)) shapeCasts_S286x262144_S262144x286) M)
    shapeCasts_S262144_S262144x1x1

set_option maxHeartbeats 1000000 in
/-- On every device, for any float values, from any memory with zero counters: every weakly fair execution of
    @main terminates with the result at `result` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v35).trans (by after_results_simp; rfl),
      (h c main_arg0).trans (by after_results),
      (h c main_arg1).trans (by after_results)⟩)
    (run_seq scopedRefs_eq scopedSems_eq defs main (fun _ => ops) main_eq (fun _ => ops_sub) m ρ)

end Cert.ReferenceIdeal.HostRun

end
-- ==== Proof.RefValue.lean ====
/-
  What the reference computes is the quadratic form of the monomial expansion.

  Read at the ideal values, index by index: a gathered row of `xr` is the row the table's entry names (the index
  column's wrap never fires, its mask being all false, and the gather clamps the entry into `0 … 9`); the
  concatenation's row `r` is the monomial `r` of the column; the host's matrix product and its sum along the
  second axis are the plain sums. The reshapes are the same functions on both sides and are never opened.
-/
import proofs.«106948_j9311489098219_1_alg».proof.Proof.RefRun
import proofs.«106948_j9311489098219_1_alg».proof.Proof.Spec
import proofs.«106948_j9311489098219_1_alg».proof.Proof.LibPlainDot
import Idealize.ShloMosaic.Lib.Pipeline.Value
import Idealize.ShloMosaic.Lib.ValueIdx
import Idealize.ShloMosaic.PureOps.Ideal.Laws

noncomputable section

namespace Cert.ReferenceIdeal.HostValue

open Cert.ReferenceIdeal Cert.ReferenceIdeal.HostRun Cert.Veronese
open Idealize.ShloMosaic Idealize.ShloMosaic.ValueIdx

/-- The index column of a table, at row `i`: the table's entry. -/
theorem col55_apply (t : (⟨S55, .i32⟩ : BufTy).Contents (Elt Ideal)) (i : Fin 55) :
    col55 (F := Ideal) t (ix2 i 0) = t (ix1 i) := by
  unfold col55
  rw [broadcastInDim_apply ![0] _ _ (ix2 i 0) (ix1 i) (fun a => by
    match a with
    | ⟨0, _⟩ => rfl)]
  rw [select_apply]
  exact select_zero _ _

theorem col220_apply (t : (⟨S220, .i32⟩ : BufTy).Contents (Elt Ideal)) (i : Fin 220) :
    col220 (F := Ideal) t (ix2 i 0) = t (ix1 i) := by
  unfold col220
  rw [broadcastInDim_apply ![0] _ _ (ix2 i 0) (ix1 i) (fun a => by
    match a with
    | ⟨0, _⟩ => rfl)]
  rw [select_apply]
  exact select_zero _ _

/-- A gathered array at `(i, n)`: `xr` at the row the table's entry `i` names, column `n`. -/
theorem rows55_apply (xr : S10x262144.Idx → EReal) (t : Fin 55 → BitVec 32) (i : Fin 55) (n : Fin 262144) :
    rows55 (F := Ideal) xr t (ix2 i n) = xr (ix2 (var (t i)) n) := by
  unfold rows55 Host.gather
  refine congrArg xr (funext fun a => Fin.ext ?_)
  match a with
  | ⟨0, _⟩ =>
    show GatherDims.start _ (ix2 i n) _ 0 + GatherDims.batchCoord _ (ix2 i n) 0 + GatherDims.offCoord _ (ix2 i n) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10x262144_S55x1_S55x262144_1_0_n_n_0_1_1262144.startIndexMap from List.mem_singleton.mpr rfl)]
    have hsi : gather_S10x262144_S55x1_S55x262144_1_0_n_n_0_1_1262144.siIdx (ix2 i n)
        ⟨List.idxOf (0 : Fin 2) gather_S10x262144_S55x1_S55x262144_1_0_n_n_0_1_1262144.startIndexMap,
          List.idxOf_lt_length_iff.2 (List.mem_singleton.mpr rfl)⟩ = ix2 i 0 := by
      funext b; refine Fin.ext ?_
      match b with
      | ⟨0, _⟩ => rfl
      | ⟨1, _⟩ => rfl
    rw [hsi, col55_apply]
    show min (t (S55.rowMajor (ix1 i))).toInt.toNat (10 - 1) = min (t i).toInt.toNat 9
    rw [show S55.rowMajor (ix1 i) = i from Fin.ext (Shape.rowMajor_val_one _)]
  | ⟨1, _⟩ =>
    show GatherDims.start _ (ix2 i n) _ 1 + GatherDims.batchCoord _ (ix2 i n) 1 + GatherDims.offCoord _ (ix2 i n) 1 = _
    rw [GatherDims.batchCoord_eq_zero _ _ _ List.not_mem_nil]
    unfold GatherDims.start
    rw [dif_neg (show ¬ (1 : Fin 2) ∈ gather_S10x262144_S55x1_S55x262144_1_0_n_n_0_1_1262144.startIndexMap from by decide)]
    unfold GatherDims.offCoord
    rw [dif_pos (show (1 : Fin 2) ∈ gather_S10x262144_S55x1_S55x262144_1_0_n_n_0_1_1262144.sKept from by decide)]
    show 0 + 0 + n.val = n.val
    omega

theorem rows220_apply (xr : S10x262144.Idx → EReal) (t : Fin 220 → BitVec 32) (i : Fin 220) (n : Fin 262144) :
    rows220 (F := Ideal) xr t (ix2 i n) = xr (ix2 (var (t i)) n) := by
  unfold rows220 Host.gather
  refine congrArg xr (funext fun a => Fin.ext ?_)
  match a with
  | ⟨0, _⟩ =>
    show GatherDims.start _ (ix2 i n) _ 0 + GatherDims.batchCoord _ (ix2 i n) 0 + GatherDims.offCoord _ (ix2 i n) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10x262144_S220x1_S220x262144_1_0_n_n_0_1_1262144.startIndexMap from List.mem_singleton.mpr rfl)]
    have hsi : gather_S10x262144_S220x1_S220x262144_1_0_n_n_0_1_1262144.siIdx (ix2 i n)
        ⟨List.idxOf (0 : Fin 2) gather_S10x262144_S220x1_S220x262144_1_0_n_n_0_1_1262144.startIndexMap,
          List.idxOf_lt_length_iff.2 (List.mem_singleton.mpr rfl)⟩ = ix2 i 0 := by
      funext b; refine Fin.ext ?_
      match b with
      | ⟨0, _⟩ => rfl
      | ⟨1, _⟩ => rfl
    rw [hsi, col220_apply]
    show min (t (S220.rowMajor (ix1 i))).toInt.toNat (10 - 1) = min (t i).toInt.toNat 9
    rw [show S220.rowMajor (ix1 i) = i from Fin.ext (Shape.rowMajor_val_one _)]
  | ⟨1, _⟩ =>
    show GatherDims.start _ (ix2 i n) _ 1 + GatherDims.batchCoord _ (ix2 i n) 1 + GatherDims.offCoord _ (ix2 i n) 1 = _
    rw [GatherDims.batchCoord_eq_zero _ _ _ List.not_mem_nil]
    unfold GatherDims.start
    rw [dif_neg (show ¬ (1 : Fin 2) ∈ gather_S10x262144_S220x1_S220x262144_1_0_n_n_0_1_1262144.startIndexMap from by decide)]
    unfold GatherDims.offCoord
    rw [dif_pos (show (1 : Fin 2) ∈ gather_S10x262144_S220x1_S220x262144_1_0_n_n_0_1_1262144.sKept from by decide)]
    show 0 + 0 + n.val = n.val
    omega

/-- The reference's array of monomials is the expansion of every column. -/
theorem monomials_eq (xr : S10x262144.Idx → EReal) : monomials (F := Ideal) xr = veronese xr := by
  funext j
  obtain ⟨p, n, rfl⟩ : ∃ (p : Fin 286) (n : Fin 262144), j = ix2 p n := ⟨j 0, j 1, eq_ix2 j⟩
  unfold monomials veronese
  show _ = mono (fun a => xr (ix2 a n)) p
  have hcol : ∀ (s : Shape) (hs : s.rank = 2) (i : s.Idx) (b : Fin s.rank), b.cast hs ≠ (0 : Fin 2) →
      (i ⟨1, by omega⟩).val = n.val → (i b).val = ((ix2 p n : S286x262144.Idx) (b.cast hs)).val := by
    intro s hs i b hb h1
    have hb1 : b = ⟨1, by omega⟩ := by
      apply Fin.ext
      have h0 : b.val ≠ 0 := fun h => hb (Fin.ext h)
      have := b.isLt
      show b.val = 1
      omega
    subst hb1
    exact h1
  by_cases h1 : p.val < 1
  · rw [mono_zero _ _ h1]
    refine Eq.trans (concatenate_apply_piece (0 : Fin 2) _ _ (ix2 p n) 0 ?_ S1x262144 _ rfl rfl 0 rfl (ix2 0 n)
      (fun b hb => hcol S1x262144 rfl _ b hb rfl) ?_) ?_
    · exact Nat.zero_lt_succ _
    · show 0 + 0 = p.val; omega
    · rfl
  by_cases h2 : p.val < 11
  · rw [mono_coord _ _ (by omega) h2]
    refine concatenate_apply_piece (0 : Fin 2) _ _ (ix2 p n) 1 ?_ S10x262144 _ rfl rfl 1 rfl (ix2 ⟨p.val - 1, by omega⟩ n)
      (fun b hb => hcol S10x262144 rfl _ b hb rfl) ?_
    · exact Nat.succ_lt_succ (Nat.zero_lt_succ _)
    · show 1 + (p.val - 1) = p.val; omega
  by_cases h3 : p.val < 66
  · rw [mono_two _ _ (by omega) h3]
    refine Eq.trans (concatenate_apply_piece (0 : Fin 2) _ _ (ix2 p n) 2 ?_ S55x262144 _ rfl rfl 11 rfl (ix2 ⟨p.val - 11, by omega⟩ n)
      (fun b hb => hcol S55x262144 rfl _ b hb rfl) ?_) ?_
    · exact Nat.succ_lt_succ (Nat.succ_lt_succ (Nat.zero_lt_succ _))
    · show 11 + (p.val - 11) = p.val; omega
    · rw [mulf_apply, rows55_apply, rows55_apply]
  · rw [mono_three _ _ (by omega)]
    refine Eq.trans (concatenate_apply_piece (0 : Fin 2) _ _ (ix2 p n) 3 ?_ S220x262144 _ rfl rfl 66 rfl (ix2 ⟨p.val - 66, by omega⟩ n)
      (fun b hb => hcol S220x262144 rfl _ b hb rfl) ?_) ?_
    · exact Nat.succ_lt_succ (Nat.succ_lt_succ (Nat.succ_lt_succ (Nat.zero_lt_succ _)))
    · show 66 + (p.val - 66) = p.val; omega
    · rw [mulf_apply, mulf_apply, rows220_apply, rows220_apply, rows220_apply]

theorem reduces_rows : S262144x286.Reduces [1] S262144 := by decide

/-- The index the host's row sum reads at result row `n` and summation coordinate `j`: `(n, j)`. -/
theorem lift_eq (h : S262144x286.Reduces [1] S262144) (n : Fin 262144) (j : Fin 286) : h.lift (ix1 n) j = ix2 n j := by
  funext a; apply Fin.ext
  match a with
  | ⟨0, _⟩ => rfl
  | ⟨1, _⟩ => rfl

/-- The reference's quadratic form is the plain double sum. -/
theorem quadForm_eq (vq : FVec Ideal S262144x286 .f32) (M : FVec Ideal S286x286 .f32) : quadForm (F := Ideal) vq M = quad vq M := by
  funext j
  obtain ⟨n, rfl⟩ : ∃ n : Fin 262144, j = ix1 n := ⟨j 0, eq_ix1 j⟩
  unfold quadForm quad Host.reduceAdd
  rw [Ideal.hostReduceAdd_def]
  refine (Ideal.hostReduceAdd_single _ reduces_rows _ _ (ix1 n)).trans ?_
  rw [constant_apply, Ideal.ofBits_zero_f32, zero_add]
  refine Finset.sum_congr rfl fun (k : Fin 286) _ => ?_
  rw [lift_eq _ n k, mulf_apply]
  exact congrArg (· * vq (ix2 n k)) (Cert.LibPlainDot.dotGeneral_apply _ rfl rfl rfl rfl rfl rfl none .single vq M n k)

/-- The result of the reference's run is the whole function of the two arguments. -/
theorem result_eq (x : S262144x10.Idx → EReal) (M : S286x286.Idx → EReal) : result (F := Ideal) x M = whole x M := by
  unfold result whole
  rw [monomials_eq, quadForm_eq]

end Cert.ReferenceIdeal.HostValue

end
-- ==== Proof.lean ====
/-
  The certificate: the Pallas kernel pair (a monomial expansion of degree three in ten variables, then the
  quadratic form of each expanded point in a 286 × 286 matrix) against its jnp reference, over the extended reals.

  Both idealized programs end with the result buffer at ONE function of the two arguments (`Cert.Veronese.whole`):
  the input read as 10 × 262144, every column expanded into its 286 monomials, the expansion read as 262144 rows of
  286 entries, each row `v` sent to `∑ j, (∑ k, v k * M k j) * v j`. The kernels' changes of float format are the
  identity on extended reals; their products and sums are the reference's own, in the same order, so no law beyond
  reading each operation at an index is used, and the finiteness of the inputs is never needed. The frames of the
  two kernel programs are the generated ones, each with its first kernel's body run on its three memory operations; the reference's is its run with the result dropped; the ideal pass
  rewrote nothing, so `preserves` has no conjunct.
-/
import proofs.«106948_j9311489098219_1_alg».proof.Defs
import proofs.«106948_j9311489098219_1_alg».proof.Proof.Gen.Kernel
import proofs.«106948_j9311489098219_1_alg».proof.Proof.KernelFrame
import proofs.«106948_j9311489098219_1_alg».proof.Proof.Gen.KernelIdeal
import proofs.«106948_j9311489098219_1_alg».proof.Proof.KernelIdealFrame
import proofs.«106948_j9311489098219_1_alg».proof.Proof.Gen.ReferenceIdeal
import proofs.«106948_j9311489098219_1_alg».proof.Proof.Gen.Pre_finite_inputs
import proofs.«106948_j9311489098219_1_alg».proof.Proof.KernelValue
import proofs.«106948_j9311489098219_1_alg».proof.Proof.RefRun
import proofs.«106948_j9311489098219_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.HostRun.run (F := Ideal) m ρ)

/-- From memories that agree on the arguments both programs end with the result at the whole function of them. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2]
  exact Cert.ReferenceIdeal.HostValue.result_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
